-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x4096 .f32) (main_arg1 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg1 main_v4
  let main_c_1 : IVec S_ 32 := constantI S_ 32 4096#32
  let main_v6 : IVec S16384 32 := broadcastInDim S16384 ![] bcast_S_S16384 main_c_1
  let main_v7 : IVec S16384 1 := cmpi .slt main_arg1 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384x4096 : Shape := ⟨2, ![16384, 4096]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S2x1x1 : Shape := ⟨3, ![2, 1, 1]⟩
abbrev S512x4096 : Shape := ⟨2, ![512, 4096]⟩
abbrev S512x1 : Shape := ⟨2, ![512, 1]⟩
abbrev S512 : Shape := ⟨1, ![512]⟩
abbrev S1x1 : Shape := ⟨2, ![1, 1]⟩

abbrev nBuf : Space → Nat
  | .hbm => 28
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S2x1x1, .f32⟩
  | .hbm, ⟨26, _⟩ => ⟨S_, .f32⟩
  | .hbm, ⟨27, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  gather_S16384x4096_S16384x1x1_S16384x1_n_1_0_0_1_2_11_wf : GatherDims.WF S16384x4096 S16384x1x1 S16384x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S4096 : Shape := ⟨1, ![4096]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S4096, .i32⟩
  | .hbm, ⟨34, _⟩ => ⟨S1x4096, .i32⟩
  | .hbm, ⟨35, _⟩ => ⟨S16384x1, .i32⟩
  | .hbm, ⟨36, _⟩ => ⟨S16384x4096, .i32⟩
  | .hbm, ⟨37, _⟩ => ⟨S16384x4096, .i32⟩
  | .hbm, ⟨38, _⟩ => ⟨S16384x4096, .i1⟩
  | .hbm, ⟨39, _⟩ => ⟨S_, .f32⟩
  | .hbm, ⟨40, _⟩ => ⟨S_, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S_d0_1 : S16384x4096.ReducesTo [0, 1] S_
  gather_S16384x4096_S16384x1x1_S16384x1_n_1_0_0_1_2_11_wf : GatherDims.WF S16384x4096 S16384x1x1 S16384x1 [] [1] [0] [1] [0] 2 ![1, 1]

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf

class Facts : Prop extends Facts₀ where

variable [Facts]
-- ==== Proof.KernelPieces.lean ====
/-
  What one grid point leaves in the carried accumulator and, at the last point of a half, in the output block.
  The accumulator is a single f32 word. A point that opens a half first stores zero into it; every point then
  stores (accumulator + tile total) where the tile total is computed from the point's two input blocks; the last
  point of a half copies the accumulator into the output block. Read back, each case's stores are the one
  payload `k0_pay2` applied to the two blocks and to what the accumulator held before the update: zero at an
  opening point, the previous point's value elsewhere.
-/
import proofs.«414020_j57389353009458_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- An opening point (first of its half): the accumulator is zeroed, read back, and updated — it ends at
    the payload over the zero word. -/
theorem acc_open (c : Dev nD) (i : grid0.Coords) (a2 : Memref sig .tc .vmem S512x4096 .f32) (h2 : a2.IsWhole)
    (a3 : Memref sig .tc .vmem S512x1 .f32) (h3 : a3.IsWhole) (a4 : Memref sig .tc .vmem S1x1x1 .f32) (h4 : a4.IsWhole)
    (a5 : Memref sig .tc .vmem S1x1x1 .f32) (h5 : a5.IsWhole) (hc0 : cond0_0 i) (hc1 : ¬cond0_1 i)
    (x0 : Vec F S512x4096 .f32) (x1 : Vec F S512x1 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S512x4096) hz2,
    View.ld_unit_zero (S := S512x1) hz2, View.ld_unit_zero (S := S1x1x1) hz3]

/-- A middle point: the accumulator ends at the payload over what the point before left in it. -/
theorem acc_mid (c : Dev nD) (i : grid0.Coords) (a2 : Memref sig .tc .vmem S512x4096 .f32) (h2 : a2.IsWhole)
    (a3 : Memref sig .tc .vmem S512x1 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : ¬cond0_1 i)
    (x0 : Vec F S512x4096 .f32) (x1 : Vec F S512x1 .f32) (xs0 : Vec F S1x1x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz3]
  simp only [View.readAt_eq_ld, h2.read_unread, h3.read_unread, h5.read_unread, View.ld_unit_zero (S := S512x4096) hz2,
    View.ld_unit_zero (S := S512x1) hz2, View.ld_unit_zero (S := S1x1x1) hz3]

/-- A closing point (last of its half): the accumulator is updated as at a middle point … -/
theorem acc_close (c : Dev nD) (i : grid0.Coords) (a2 : Memref sig .tc .vmem S512x4096 .f32) (h2 : a2.IsWhole)
    (a3 : Memref sig .tc .vmem S512x1 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 : Vec F S512x4096 .f32) (x1 : Vec F S512x1 .f32) (xs0 : Vec F S1x1x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S512x4096) hz2,
    View.ld_unit_zero (S := S512x1) hz2, View.ld_unit_zero (S := S1x1x1) hz3]

/-- … and the output block receives the updated accumulator: the same payload. -/
theorem out_close (c : Dev nD) (i : grid0.Coords) (a2 : Memref sig .tc .vmem S512x4096 .f32) (h2 : a2.IsWhole)
    (a3 : Memref sig .tc .vmem S512x1 .f32) (h3 : a3.IsWhole) (a4 : Memref sig .tc .vmem S1x1x1 .f32) (h4 : a4.IsWhole)
    (a5 : Memref sig .tc .vmem S1x1x1 .f32) (h5 : a5.IsWhole) (hc0 : ¬cond0_0 i) (hc1 : cond0_1 i)
    (x0 : Vec F S512x4096 .f32) (x1 : Vec F S512x1 .f32) (xs0 : Vec F S1x1x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readCov_unit_zero (S := S1x1x1) _ hz3, View.readAt_eq_ld, h2.read_unread, h3.read_unread, h5.read_unread,
    View.ld_unit_zero (S := S512x4096) hz2, View.ld_unit_zero (S := S512x1) hz2, View.ld_unit_zero (S := S1x1x1) hz3]

end Cert.KernelIdeal.Pieces

end
-- ==== Proof.KernelChain.lean ====
/-
  The accumulator along the grid. The 32 points run in order; points 0 and 16 open a half (the accumulator restarts
  from zero), every point adds its tile's total, points 15 and 31 close a half (the output block receives the
  accumulator). So what the accumulator holds after point n is the update applied over zero at an opening point and
  over the value after point n − 1 elsewhere: one recursion on the point, proved by induction with the three cases'
  read-back values, never by enumerating the grid.
-/
import proofs.«414020_j57389353009458_3_alg».proof.Proof.KernelPieces

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The tile of scores and the column of label scores that point `t` is handed. -/
abbrev xblk (c : Dev nD) (t : Fin cfg0.N) : Vec F S512x4096 .f32 := iblk m c 0 t
abbrev gblk (c : Dev nD) (t : Fin cfg0.N) : Vec F S512x1 .f32 := iblk m c 1 t

/-- The accumulator after point `n`: the update over zero at a point that opens a half (every sixteenth), over the
    previous point's value elsewhere. -/
def accAt (c : Dev nD) : (n : ℕ) → n < cfg0.N → Vec F S1x1x1 .f32
  | 0, h => k0_pay2 (xblk m c ⟨0, h⟩) (gblk m c ⟨0, h⟩) (k0_pay1 (F := F))
  | n + 1, h => k0_pay2 (xblk m c ⟨n + 1, h⟩) (gblk m c ⟨n + 1, h⟩)
      (if (n + 1) % 16 = 0 then k0_pay1 (F := F) else accAt c n (Nat.lt_of_succ_lt h))

/-- What the frame's point-by-point contents hold in the accumulator after point `n` is that recursion. -/
theorem acc_eq (c : Dev nD) : ∀ (n : ℕ) (h : n < cfg0.N), (outsAt0 m c n h).2 = accAt m c n h
  | 0, h => by
    rw [outsAt0_A m c ⟨0, h⟩ rfl (by show ¬ (0 : ℕ) % 16 = 15; decide)]
    dsimp only
    exact acc_open c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (iblk m c 0 ⟨0, h⟩) (iblk m c 1 ⟨0, h⟩)
  | n + 1, h => by
    have hN : n + 1 < 32 := lt_of_lt_of_eq h (show cfg0.N = 32 from N_0)
    by_cases h0 : (n + 1) % 16 = 0
    · have h1 : ¬(n + 1) % 16 = 15 := by omega
      rw [outsAt0_A m c ⟨n + 1, h⟩ h0 h1]
      dsimp only
      refine (acc_open c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        scM0_0 (Memref.isWhole_whole _) _ _ (iblk m c 0 ⟨n + 1, h⟩) (iblk m c 1 ⟨n + 1, h⟩)).trans ?_
      show _ = k0_pay2 _ _ (if (n + 1) % 16 = 0 then _ else _)
      rw [if_pos h0]
    · by_cases h1 : (n + 1) % 16 = 15
      · rw [outsAt0_C m c ⟨n + 1, h⟩ h0 h1]
        dsimp only
        refine (acc_close c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) _ _ (iblk m c 0 ⟨n + 1, h⟩) (iblk m c 1 ⟨n + 1, h⟩) (outsAt0 m c n (Nat.lt_of_succ_lt h)).2).trans ?_
        show _ = k0_pay2 _ _ (if (n + 1) % 16 = 0 then _ else _)
        rw [if_neg h0, acc_eq c n (Nat.lt_of_succ_lt h)]
      · rw [outsAt0_B m c ⟨n + 1, h⟩ h0 h1]
        dsimp only
        refine (acc_mid c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          scM0_0 (Memref.isWhole_whole _) _ _ (iblk m c 0 ⟨n + 1, h⟩) (iblk m c 1 ⟨n + 1, h⟩) (outsAt0 m c n (Nat.lt_of_succ_lt h)).2).trans ?_
        show _ = k0_pay2 _ _ (if (n + 1) % 16 = 0 then _ else _)
        rw [if_neg h0, acc_eq c n (Nat.lt_of_succ_lt h)]

/-- At a point that closes a half the output block receives the accumulator's new value. -/
theorem out_eq (c : Dev nD) (n : ℕ) (h : n < cfg0.N) (h15 : n % 16 = 15) : (outsAt0 m c n h).1 = accAt m c n h := by
  obtain ⟨k, rfl⟩ : ∃ k, n = k + 1 := ⟨n - 1, by omega⟩
  have h0 : ¬(k + 1) % 16 = 0 := by omega
  rw [outsAt0_C m c ⟨k + 1, h⟩ h0 h15]
  dsimp only
  refine (out_close c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩)
    scM0_0 (Memref.isWhole_whole _) _ _ (iblk m c 0 ⟨k + 1, h⟩) (iblk m c 1 ⟨k + 1, h⟩) (outsAt0 m c k (Nat.lt_of_succ_lt h)).2).trans ?_
  show _ = k0_pay2 _ _ (if (k + 1) % 16 = 0 then _ else _)
  rw [if_neg h0, acc_eq m c k (Nat.lt_of_succ_lt h)]

end Cert.KernelIdeal.Chain
end
-- ==== Proof.KernelPayload.lean ====
/-
  The accumulator update of one grid point, read over the extended reals. The point holds a tile of 512 rows by
  4096 columns of scores and the column of the rows' label scores. Every entry becomes its hinge term
  max (score − label score + 1, 0); the terms are summed along each row, the row sums along the tile, the row
  count 512 is subtracted, and the result is added to the accumulator. At the one index of the accumulator this is
  accumulator + ((∑ r, ∑ q, hinge) − 512): both lane reductions are plain finite sums, the casts between the
  shapes [512], [512, 1], [1], [1, 1], [1, 1, 1] keep the row-major position, and the column broadcast reads
  row r of the label column at every column q.
-/
import proofs.«414020_j57389353009458_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload
open Cert.KernelIdeal Cert.KernelIdeal.Gen

/-- The hinge term of one score against its row's label score. -/
def hinge (x g : EReal) : EReal := max (x - g + Ideal.ofBits .f32 0x3F800000#32) (Ideal.ofBits .f32 0x00000000#32)

/-- One entry of the tile: the score less the row's label score, plus one, clipped below at zero. -/
theorem term_apply (x0 : FVec Ideal S512x4096 .f32) (x1 : FVec Ideal S512x1 .f32) (r : Fin 512) (q : Fin 4096) :
    maximumf
      (addf (subf x0 (broadcastTo S512x4096 (shapeCast S512x1 x1 shapeCasts_S512x1_S512x1) broadcasts_S512x1_S512x4096))
        (broadcast S512x4096 (FloatOps.ofBits (F := Ideal) FTy.f32 0x3F800000#32)))
      (broadcast S512x4096 (FloatOps.ofBits (F := Ideal) FTy.f32 0x00000000#32)) (ix2 r q)
      = hinge (x0 (ix2 r q)) (x1 (ix2 r (0 : Fin 1))) := by
  rw [maximumf_apply, addf_apply, subf_apply, broadcast_apply, broadcast_apply,
    broadcastTo_apply _ broadcasts_S512x1_S512x4096 (ix2 r q) (ix2 r (0 : Fin 1)) (fun a => by
      match a with
      | ⟨0, _⟩ => show r.val = if (512 : Nat) = 1 then 0 else r.val; rw [if_neg (by decide)]
      | ⟨1, _⟩ => show (0 : Nat) = if (1 : Nat) = 1 then 0 else q.val; rw [if_pos rfl]),
    shapeCast_self]
  rfl

/-- The update at the accumulator's index: what it held, plus the tile's hinge total less its 512 rows. -/
theorem pay2_apply (x0 : FVec Ideal S512x4096 .f32) (x1 : FVec Ideal S512x1 .f32) (acc : FVec Ideal S1x1x1 .f32) (j : S1x1x1.Idx) :
    k0_pay2 (F := Ideal) x0 x1 acc j
      = acc j + ((∑ r : Fin 512, ∑ q : Fin 4096, hinge (x0 (ix2 r q)) (x1 (ix2 r (0 : Fin 1)))) - Ideal.ofBits .f32 0x44000000#32) := by
  unfold k0_pay2
  dsimp only
  rw [shapeCast_self, addf_apply]
  congr 1
  rw [shapeCast_apply _ _ j (ix2 (0 : Fin 1) (0 : Fin 1)) (by
    rw [Shape.rowMajor_val_two, Shape.rowMajor_val_three]
    have h0 : (j 0).val < 1 := (j 0).isLt; have h1 : (j 1).val < 1 := (j 1).isLt; have h2 : (j 2).val < 1 := (j 2).isLt
    show (0 : Nat) * 1 + 0 = ((j 0).val * 1 + (j 1).val) * 1 + (j 2).val; omega)]
  rw [subf_apply, broadcast_apply]
  congr 1
  rw [shapeCast_apply _ _ (ix2 (0 : Fin 1) (0 : Fin 1)) (ix1 (0 : Fin 1)) (by
    rw [Shape.rowMajor_val_one, Shape.rowMajor_val_two]; rfl)]
  refine (Ideal.multiReduction_add_single _ 0x00000000#32 reduces_S512x1_S1 (.inl rfl) rfl (ix1 (0 : Fin 1))).trans ?_
  refine Finset.sum_congr rfl fun r _ => ?_
  have l0 : (reduces_S512x1_S1.lift (ix1 (0 : Fin 1)) r 0).val = r.val := rfl
  have l1 : (reduces_S512x1_S1.lift (ix1 (0 : Fin 1)) r 1).val = 0 := rfl
  refine (shapeCast_apply _ shapeCasts_S512_S512x1 _ (ix1 r) (by
    rw [Shape.rowMajor_val_one, Shape.rowMajor_val_two, l0, l1]
    show r.val = r.val * 1 + 0; omega)).trans ?_
  refine (Ideal.multiReduction_add_single _ 0x00000000#32 reduces_S512x4096_S512 (.inl rfl) rfl (ix1 r)).trans ?_
  refine Finset.sum_congr rfl fun q _ => ?_
  have e : reduces_S512x4096_S512.lift (ix1 r) q = ix2 r q := by
    funext a
    match a with
    | ⟨0, _⟩ => rfl
    | ⟨1, _⟩ => rfl
  rw [e]
  exact term_apply x0 x1 r q

end Cert.KernelIdeal.Payload
end
-- ==== Proof.KernelTotal.lean ====
/-
  The accumulator over the extended reals. Each point adds its tile's total — the tile's hinge terms summed, less the
  512 rows — to what the accumulator held, and a half's first point starts from zero; so after point n the
  accumulator is the sum of the totals of the tiles from the start of n's half up to n. Addition of extended reals is
  associative and commutative without side conditions, so the running sum in point order is that finite sum.
-/
import proofs.«414020_j57389353009458_3_alg».proof.Proof.KernelChain
import proofs.«414020_j57389353009458_3_alg».proof.Proof.KernelPayload

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Chain Cert.KernelIdeal.Payload

variable (m : (ℓ : Loc nD τ sig) → Buf (Elt Ideal) ℓ)

/-- The total of point `k`'s tile: its hinge terms summed, less its 512 rows (zero past the grid). -/
def tileTot (c : Dev nD) (k : ℕ) : EReal :=
  if h : k < cfg0.N then
    (∑ r : Fin 512, ∑ q : Fin 4096, hinge (xblk m c ⟨k, h⟩ (ix2 r q)) (gblk m c ⟨k, h⟩ (ix2 r (0 : Fin 1))))
      - Ideal.ofBits .f32 0x44000000#32
  else 0

/-- The word a half's first point stores before accumulating is zero. -/
theorem zero_apply (j : S1x1x1.Idx) : k0_pay1 (F := Ideal) j = 0 := by
  unfold k0_pay1
  rw [shapeCast_self, broadcast_apply]
  exact Ideal.ofBits_zero_f32

/-- After point `n` the accumulator holds the totals of the tiles of its half up to `n`. -/
theorem accAt_apply (c : Dev nD) : ∀ (n : ℕ) (h : n < cfg0.N) (j : S1x1x1.Idx),
    accAt m c n h j = ∑ i ∈ Finset.range (n % 16 + 1), tileTot m c (n - n % 16 + i)
  | 0, h, j => by
    show k0_pay2 (F := Ideal) (xblk m c ⟨0, h⟩) (gblk m c ⟨0, h⟩) (k0_pay1 (F := Ideal)) j = _
    rw [pay2_apply, zero_apply, zero_add]
    show _ = ∑ i ∈ Finset.range 1, tileTot m c (0 - 0 + i)
    rw [Finset.sum_range_one]
    show _ = tileTot m c 0
    unfold tileTot
    rw [dif_pos h]
  | n + 1, h, j => by
    have hN : n + 1 < 32 := lt_of_lt_of_eq h (show cfg0.N = 32 from N_0)
    show k0_pay2 (F := Ideal) (xblk m c ⟨n + 1, h⟩) (gblk m c ⟨n + 1, h⟩) (if (n + 1) % 16 = 0 then k0_pay1 (F := Ideal) else accAt m c n (Nat.lt_of_succ_lt h)) j = _
    rw [pay2_apply]
    have ht : tileTot m c (n + 1) = (∑ r : Fin 512, ∑ q : Fin 4096, hinge (xblk m c ⟨n + 1, h⟩ (ix2 r q)) (gblk m c ⟨n + 1, h⟩ (ix2 r (0 : Fin 1))))
        - Ideal.ofBits .f32 0x44000000#32 := by unfold tileTot; rw [dif_pos h]
    rw [← ht]
    by_cases h0 : (n + 1) % 16 = 0
    · rw [if_pos h0, zero_apply, zero_add, h0]
      show _ = ∑ i ∈ Finset.range 1, tileTot m c (n + 1 - 0 + i)
      rw [Finset.sum_range_one]
      rfl
    · rw [if_neg h0, accAt_apply c n (Nat.lt_of_succ_lt h) j]
      have e1 : (n + 1) % 16 = n % 16 + 1 := by omega
      have e2 : n + 1 - (n % 16 + 1) = n - n % 16 := by omega
      have e3 : n - n % 16 + (n % 16 + 1) = n + 1 := by omega
      rw [e1, e2]
      conv_rhs => rw [Finset.sum_range_succ, e3]

end Cert.KernelIdeal.Total
end
-- ==== Proof.KernelResult.lean ====
/-
  The kernel's result. The output array has two entries, one per half of the grid; entry p is written back once, by
  the last point of half p, with the accumulator's value there: the sum of the totals of the half's sixteen tiles. The
  two write-backs cover the array. The host line after the region sums the array from zero, and that sum is the
  program's result; the two argument arrays end as they began.
-/
import proofs.«414020_j57389353009458_3_alg».proof.Proof.KernelTotal
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.KernelIdeal.Chain Cert.KernelIdeal.Payload Cert.KernelIdeal.Total

variable (m : (ℓ : Loc nD τ sig) → Buf (Elt Ideal) ℓ) (ρ : Dev nD → PrngReg)

/-- The output array after the run: entry `p` is the sum of the totals of the sixteen tiles of half `p`. -/
def outArr (c : Dev nD) : S2x1x1.Idx → EReal :=
  fun i => ∑ k ∈ Finset.range 16, tileTot m c (16 * (i 0).val + k)

/-- The output's index map, decided over the grid: point `t` addresses block (t / 16, 0, 0). -/
theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- What a closing point writes back is its block of `outArr`: the accumulator after the point, the sum over its
    half's sixteen tiles. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  show (cfg0.win 2).cut (grid0.coords t) ((dats m 0 c).after 2 t) = _
  rw [after0_2, out_eq m c t.val t.isLt h15]
  funext y
  show accAt m c t.val t.isLt y = outArr m c (((cfg0.win 2).blk t).view.emb y)
  rw [accAt_apply]
  unfold outArr
  have e : ((((cfg0.win 2).blk t).view.emb y) 0).val = t.val / 16 := by
    show win0_2.index t (0 : Fin 3) * 1 + 1 * (y 0).val = _
    have hy : (y 0).val < 1 := (y 0).isLt
    rw [(idx_out t).1]; omega
  rw [e, h15]
  refine Finset.sum_congr rfl fun i _ => ?_
  congr 1
  omega

/-- An index of the output array is in point `t`'s block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- Entry `p` of the output array is written back by the last point of half `p`, so the two write-backs cover
    the array and it ends at `outArr`. -/
theorem final (c : Dev nD) : (dats m 0 c).arrAt 2 cfg0.N = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 1 := (i 2).isLt
    have hN : cfg0.N = 32 := N_0
    have ht : 16 * (i 0).val + 15 < cfg0.N := by rw [hN]; omega
    refine ⟨⟨16 * (i 0).val + 15, ht⟩, (flush0_2 _).mpr (by show (16 * (i 0).val + 15) % 16 = 15; omega), ?_⟩
    rw [mem_blk]
    obtain ⟨e0, e1, e2⟩ := idx_out ⟨16 * (i 0).val + 15, ht⟩
    have e0' : win0_2.index ⟨16 * (i 0).val + 15, ht⟩ (0 : Fin 3) = (i 0).val := by rw [e0]; show (16 * (i 0).val + 15) / 16 = _; omega
    intro a
    match a with
    | ⟨0, _⟩ =>
      show win0_2.index ⟨16 * (i 0).val + 15, ht⟩ (0 : Fin 3) * 1 ≤ (i 0).val ∧ (i 0).val < win0_2.index ⟨16 * (i 0).val + 15, ht⟩ (0 : Fin 3) * 1 + 1
      rw [e0']; omega
    | ⟨1, _⟩ =>
      show win0_2.index ⟨16 * (i 0).val + 15, ht⟩ (1 : Fin 3) * 1 ≤ (i 1).val ∧ (i 1).val < win0_2.index ⟨16 * (i 0).val + 15, ht⟩ (1 : Fin 3) * 1 + 1
      rw [e1]; omega
    | ⟨2, _⟩ =>
      show win0_2.index ⟨16 * (i 0).val + 15, ht⟩ (2 : Fin 3) * 1 ≤ (i 2).val ∧ (i 2).val < win0_2.index ⟨16 * (i 0).val + 15, ht⟩ (2 : Fin 3) * 1 + 1
      rw [e2]; omega

/-- The program's result: the host's sum, from zero, of the two entries of the output array. -/
def result (c : Dev nD) : S_.Idx → EReal :=
  Host.reduceAdd (F := Ideal) (outArr m c) (constant (F := Ideal) S_ .f32 0x00000000#32) reducesTo_S2x1x1_S_d0_1_2 h_S_

/-- The host line after the region reads the output array the region left and sums it. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = outArr m c :=
    (Pipeline.withArrays_arr spec0 launch0.win.arr_inj c _ _ 2).trans (final m c)
  rw [e]
  rfl

/-- The run, read: the result buffer at the host's sum of the output array, the two arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result
end
-- ==== Proof.KernelColumn.lean ====
/-
  The column of label scores the kernel's region is handed. The host lines before the region — the broadcast of the
  labels to a column and the row-wise gather with its wrap, range test and fill — are, operation for operation, the
  lines with which the reference computes its own column; so the array the region finds in the gather's result buffer
  is the reference's column of the same two arguments.
-/
import proofs.«414020_j57389353009458_3_alg».proof.Proof.Gen.KernelIdeal.Frame
import proofs.«414020_j57389353009458_3_alg».proof.Proof.RefRead
import Idealize.ShloMosaic.Lib.StableHlo.Run

noncomputable section

open Idealize.ShloMosaic Idealize.ShloMosaic.TcCoe Idealize.SL.Sem Idealize.ShloMosaic.StableHlo

namespace Cert.KernelIdeal.ColumnK

open Cert.KernelIdeal Cert.KernelIdeal.Gen

variable {F : FTy → Type} [FloatOps F]
variable (m : (ℓ : Loc nD τ sig) → Buf (Elt F) ℓ)

set_option maxRecDepth 65536 in
set_option maxHeartbeats 4000000 in
/-- What the region finds in the gathered column's buffer: the reference's column of the two arguments. -/
theorem V_main_v1 (c : Dev nD) : (V m c main_v1 : S16384x1.Idx → Elt F .f32)
    = Cert.ReferenceIdeal.Read.val_main_v1 (F := F) (m ((c : Thread nD τ).loc main_arg0)) (m ((c : Thread nD τ).loc main_arg1)) := by
  dsimp only [V, V0]
  simp only [hostOps0, hostOps0_1, List.flatten_cons, List.flatten_nil, List.append_nil, List.cons_append, List.nil_append]
  after_results_simp <;> (try simp only [TRef.ofBuf, TRef.toBuf, cast_eq]) <;> rfl

end Cert.KernelIdeal.ColumnK
end
-- ==== Proof.KernelBlocks.lean ====
/-
  What the input windows hand a grid point. Point t is handed row block t of the score matrix (rows 512 t … 512 t + 511,
  all 4096 columns) and the same rows of the column of label scores; so entry (r, q) of the tile is entry
  (512 t + r, q) of the matrix argument, and entry r of the column block is row 512 t + r of the gathered column,
  which is the reference's column of the two arguments.
-/
import proofs.«414020_j57389353009458_3_alg».proof.Proof.KernelChain
import proofs.«414020_j57389353009458_3_alg».proof.Proof.KernelColumn
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Chain

variable {F : FTy → Type} [FloatOps F]
variable (m : (ℓ : Loc nD τ sig) → Buf (Elt F) ℓ)

/-- The input windows' index maps, decided over the grid: point `t` is handed row block `t` of both inputs. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of point `t`'s tile is row `512 t + r` of the matrix. -/
def rowOf (t : Fin cfg0.N) (r : Fin 512) : Fin 16384 :=
  ⟨512 * t.val + r.val, by have h : t.val < 32 := lt_of_lt_of_eq t.isLt (show cfg0.N = 32 from N_0); have := r.isLt; omega⟩

/-- The tile of point `t` read at (r, q): the matrix argument at (512 t + r, q). -/
theorem xblk_apply (c : Dev nD) (t : Fin cfg0.N) (r : Fin 512) (q : Fin 4096) :
    xblk m c t (ix2 r q) = m ((c : Thread nD τ).loc main_arg0) (ix2 (rowOf t r) q) := by
  show V m c main_arg0 (((cfg0.win 0).blk t).view.emb (ix2 r q)) = _
  rw [V_main_arg0]
  refine congrArg _ (funext fun a => Fin.ext ?_)
  obtain ⟨e0, e1, -, -⟩ := idx_in t
  match a with
  | ⟨0, _⟩ => show win0_0.index t (0 : Fin 2) * 512 + 1 * r.val = 512 * t.val + r.val; rw [e0]; omega
  | ⟨1, _⟩ => show win0_0.index t (1 : Fin 2) * 4096 + 1 * q.val = q.val; rw [e1]; omega

/-- The column block of point `t` read at row r: the gathered column at row 512 t + r. -/
theorem gblk_apply (c : Dev nD) (t : Fin cfg0.N) (r : Fin 512) :
    gblk m c t (ix2 r (0 : Fin 1))
      = Cert.ReferenceIdeal.Read.val_main_v1 (F := F) (m ((c : Thread nD τ).loc main_arg0)) (m ((c : Thread nD τ).loc main_arg1))
          (ix2 (rowOf t r) (0 : Fin 1)) := by
  show V m c main_v1 (((cfg0.win 1).blk t).view.emb (ix2 r (0 : Fin 1))) = _
  rw [Cert.KernelIdeal.ColumnK.V_main_v1]
  refine congrArg _ (funext fun a => Fin.ext ?_)
  obtain ⟨-, -, e0, e1⟩ := idx_in t
  match a with
  | ⟨0, _⟩ => show win0_1.index t (0 : Fin 2) * 512 + 1 * r.val = 512 * t.val + r.val; rw [e0]; omega
  | ⟨1, _⟩ => show win0_1.index t (1 : Fin 2) * 1 + 1 * 0 = 0; rw [e1]

end Cert.KernelIdeal.Blocks
end
-- ==== Proof.LibGatherAlongAxis.lean ====
/-
  A gather along the second axis of a matrix, one start index per row — what `take_along_axis(x, idx, axis=1)`
  over an [R × C] matrix and an [R × 1] column of positions lowers to: the first axis of the operand is a batching
  axis paired with the first axis of the start indices, the second is collapsed and start-indexed, the start
  indices carry a trailing index-vector axis of size one, and the result has no offset axis. Row `p` of the
  result reads the operand's row `p` at that row's start index, read signed and clamped into `[0, C - 1]`.
-/
import Idealize.ShloMosaic.PureOps
import Idealize.ShloMosaic.Lib.ValueIdx

namespace Idealize.ShloMosaic

open ValueIdx

/-- The row-wise gather read at row `p`. The hypotheses are the printed dimension numbers, each closed by `rfl`
    at a literal record. -/
theorem Host.gather_along_axis1 {α : Type} {R C w : Nat}
    (d : GatherDims (⟨2, ![R, C]⟩ : Shape) (⟨3, ![R, 1, 1]⟩ : Shape) (⟨2, ![R, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec (⟨3, ![R, 1, 1]⟩ : Shape) w) (p : Fin R) (hC : 0 < C) :
    Host.gather d x idx (ix2 p (0 : Fin 1))
      = x (ix2 p (⟨min (idx (ix3 p (0 : Fin 1) (0 : Fin 1))).toInt.toNat (C - 1), by omega⟩ : Fin C)) := by
  -- the start-indexed axis is collapsed, so its slice has size one and the clamp's upper end is `C - 1`
  have hsl : d.sliceSizes 1 = 1 := d.slice_collapsed 1 (by rw [hcoll]; exact List.mem_singleton.mpr rfl)
  -- read the dimension numbers as the literal lists they are: the record's fields become variables, and the
  -- six equations replace them by `[]`, `[1]`, `[0]`, `[0]`, `[1]` and `2`
  obtain ⟨od, cd, ob, sb, sm, iv, ss, wf⟩ := d
  simp only at hoff hcoll hob hsb hsim hivd hsl
  subst hoff hcoll hob hsb hsim hivd
  -- the gather reads the operand at the operand index; compare the two operand indices axis by axis, as numbers:
  -- on each axis the operand index is the clamped start plus the batching coordinate plus the offset coordinate
  unfold Host.gather
  congr 1
  funext a
  match a with
  | ⟨0, _⟩ =>
    -- operand axis 0 is the batching axis: it is not start-indexed (start `0`) and not a kept axis (offset `0`), and
    -- its batching coordinate is the result index's coordinate on the batch axis paired with start-indices axis 0.
    -- The result has no offset axes, so its batch axes are `[0, 1]`, in step with the start indices' axes other
    -- than the index vector's, `[0, 1]`: start-indices axis 0 reads the result's axis 0, whose coordinate is `p`.
    apply Fin.ext
    simp only [GatherDims.operandIdx]
    rw [GatherDims.start_batching _ _ _ _ (List.mem_singleton.mpr rfl),
      GatherDims.offCoord_eq_zero _ _ _ (by rw [GatherDims.mem_sKept]; simp), Nat.zero_add, Nat.add_zero]
    rfl
  | ⟨1, _⟩ =>
    -- operand axis 1 is collapsed and start-indexed: no batching coordinate (`1 ∉ [0]`), no offset coordinate
    -- (a collapsed axis is not kept), and the start is component 0 of the start index clamped to `[0, C - 1]`
    apply Fin.ext
    simp only [GatherDims.operandIdx]
    rw [GatherDims.batchCoord_eq_zero _ _ _ (by simp),
      GatherDims.offCoord_eq_zero _ _ _ (by rw [GatherDims.mem_sKept]; simp), Nat.add_zero]
    unfold GatherDims.start
    split
    · show min (idx _).toInt.toNat (C - ss 1) = _
      rw [hsl]
      -- the start index is read at the result's batch coordinates `(p, 0)` on start-indices axes 0 and 1, with
      -- the component's number, `0` (axis 1 is first in the start index map), on the index vector's axis 2
      refine congrArg (fun z => min (idx z).toInt.toNat (C - 1)) ?_
      funext b
      match b with
      | ⟨0, _⟩ => rfl
      | ⟨1, _⟩ => rfl
      | ⟨2, _⟩ => rfl
    · -- axis 1 IS in the start index map `[1]`
      rename_i hn
      exact absurd (List.mem_singleton.mpr rfl) hn

end Idealize.ShloMosaic
-- ==== Proof.RefColumn.lean ====
/-
  The column of label scores. Both programs first gather, for every row, the score at the row's label: the label is
  wrapped (label + 4096 when negative), tested for the range [0, 4095], the matrix is gathered along its second axis
  at the wrapped label clamped into that range, and rows that fail the test receive a fill value. When every label is
  a column number (0 ≤ label < 4096) nothing of this machinery acts: no wrap, the test passes, the clamp is the
  identity, and row p of the column is the score at (p, label p).
-/
import proofs.«414020_j57389353009458_3_alg».proof.Proof.RefRead
import proofs.«414020_j57389353009458_3_alg».proof.Proof.LibGatherAlongAxis
import Idealize.ShloMosaic.Lib.StableHlo.Predicate
import Idealize.ShloMosaic.Lib.ValueIdx
import Idealize.ShloMosaic.PureOps.Reduce

noncomputable section

open Idealize.ShloMosaic Idealize.ShloMosaic.ValueIdx

namespace Cert.ReferenceIdeal.Column

open Cert.ReferenceIdeal Cert.ReferenceIdeal.Gen Cert.ReferenceIdeal.Read

variable {F : FTy → Type} [FloatOps F]

/-- A reduce by `and` from 1 over words that are all 1 is 1. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  have key : ∀ (l : List s.Idx) (a : BitVec 1), a = 1#1 → (∀ i ∈ l, x i = 1#1) →
      l.foldl (fun r i => IntOp.andi r (x i)) a = 1#1 := by
    intro l
    induction l with
    | nil => intro a ha _; exact ha
    | cons b l ih =>
      intro a ha hl
      refine ih _ ?_ (fun i hi => hl i (List.mem_cons_of_mem _ hi))
      show IntOp.andi a (x b) = 1#1
      rw [ha, hl b (List.mem_cons_self ..)]; decide
  refine key _ _ hinit fun i hi => hx i ?_
  have := (List.mem_filter.1 hi).2
  simpa using this

/-- A start-index position (p, 0, 0) traces back through the reshape and the column broadcast to row `p`. -/
theorem idx_row (i : S16384x1x1.Idx) : idx_main_v0 (idx_main_call0_v5 i) = ix1 (n := 16384) (i 0) := by
  funext a
  match a with
  | ⟨0, _⟩ =>
    apply Fin.ext
    have h1 : (i 1).val < 1 := (i 1).isLt
    have h2 : (i 2).val < 1 := (i 2).isLt
    show (((i 0).val * 1 + (i 1).val) * 1 + (i 2).val) / 1 = (i 0).val
    omega

/-- The start index of row `p` is the row's label, when the label is a column number: the negative-index
    wrap-around is not taken. -/
theorem start_eq (lab : (⟨S16384, .i32⟩ : BufTy).Contents (Elt F)) (i : S16384x1x1.Idx)
    (hp : (lab (ix1 (n := 16384) (i 0))).toNat < 4096) : val_main_call0_v5 (F := F) lab i = lab (ix1 (n := 16384) (i 0)) := by
  rw [val_main_call0_v5_apply, val_main_call0_v4_apply, val_main_call0_v1_apply, val_main_v0_apply, val_main_call0_v0_apply,
    val_main_call0_c_apply]
  rw [idx_row]
  have hneg : IntOp.cmpi .slt (lab (ix1 (n := 16384) (i 0))) 0#32 = 0#1 :=
    eq_zero_of_ne_one fun h => by
      have h' := (StableHlo.Predicate.slt_iff_toNat (by omega) (by decide)).1 h
      have z : (0#32 : BitVec 32).toNat = 0 := rfl
      omega
  rw [hneg, select_zero]

/-- The gathered column: row `p` holds the score at the row's label. The range test passes (0 ≤ label ≤ 4095), so
    the fill value is not taken, and the clamp of the start index into [0, 4095] leaves the label as it is. -/
theorem gathered (X : (⟨S16384x4096, .f32⟩ : BufTy).Contents (Elt F)) (lab : (⟨S16384, .i32⟩ : BufTy).Contents (Elt F))
    (p : Fin 16384) (hp : (lab (ix1 p)).toNat < 4096) :
    val_main_v1 (F := F) X lab (ix2 p (0 : Fin 1)) = X (ix2 p (⟨(lab (ix1 p)).toNat, hp⟩ : Fin 4096)) := by
  rw [val_main_v1_apply]
  have h12 : val_main_call0_v12 (F := F) lab (ix2 p (0 : Fin 1)) = 1#1 := by
    unfold val_main_call0_v12
    refine reduce_andi_of_all _ _ _ _ _ rfl fun i hi => ?_
    have hi0 : i 0 = p := congrFun hi 0
    have hpi : (lab (ix1 (n := 16384) (i 0))).toNat < 4096 := by rw [hi0]; exact hp
    rw [val_main_call0_v11_apply, val_main_call0_v7_apply, val_main_call0_v10_apply, start_eq lab i hpi,
      val_main_call0_v6_apply, val_main_call0_c_2_apply, val_main_call0_v9_apply, val_main_call0_v8_apply,
      val_main_call0_c_1_apply]
    have z0 : (0#32 : BitVec 32).toNat = 0 := rfl
    have z1 : (4095#32 : BitVec 32).toNat = 4095 := rfl
    exact IntOp.andi_eq_one.2 ⟨(StableHlo.Predicate.sge_iff_toNat (by omega) (by decide)).2 (by omega),
      (StableHlo.Predicate.sle_iff_toNat (by omega) (by decide)).2 (by omega)⟩
  rw [h12, select_one]
  unfold val_main_call0_v13
  rw [Host.gather_along_axis1 gather_S16384x4096_S16384x1x1_S16384x1_n_1_0_0_1_2_11 rfl rfl rfl rfl rfl rfl X _ p (by decide)]
  refine congrArg X (congrArg (ix2 p) (Fin.ext ?_))
  show min (BitVec.toInt (val_main_call0_v5 (F := F) lab (ix3 p (0 : Fin 1) (0 : Fin 1)))).toNat (4096 - 1) = (lab (ix1 p)).toNat
  rw [start_eq lab (ix3 p (0 : Fin 1) (0 : Fin 1)) hp, StableHlo.Predicate.toInt_eq_toNat_of_lt (by show (lab (ix1 p)).toNat < 2 ^ 31; omega),
    Int.toNat_natCast]
  show min (lab (ix1 p)).toNat (4096 - 1) = (lab (ix1 p)).toNat
  omega

end Cert.ReferenceIdeal.Column
end
-- ==== Proof.Consts.lean ====
/-
  The float constants the two programs spell, as the extended reals their bit patterns denote: the f32 pattern
  0x3F800000 is 1 (sign 0, exponent 127, fraction 0), 0x44000000 is 512 = 2⁹ (exponent 136, fraction 0), and
  0x7F800000, every exponent bit set and the fraction clear, is +∞. (Zero is the library's `Ideal.ofBits_zero_f32`.)
-/
import Idealize.ShloMosaic.PureOps.Ideal
import Idealize.ShloMosaic.PureOps.Ideal.Laws

noncomputable section

namespace Cert.Consts

open Idealize.ShloMosaic

/-- `1.0` denotes 1. -/
theorem ofBits_one : Ideal.ofBits .f32 0x3F800000#32 = (1 : EReal) := by
  simp [Ideal.ofBits, Ideal.ieee, -EReal.coe_mul]; norm_num

/-- `512.0` denotes 512. -/
theorem ofBits_512 : Ideal.ofBits .f32 0x44000000#32 = (512 : EReal) := by
  have h : Ideal.ofBits .f32 0x44000000#32 = ((512 : ℝ) : EReal) := by
    simp [Ideal.ofBits, Ideal.ieee, -EReal.coe_mul]; norm_num
  rw [h]; norm_cast

/-- The pattern with every exponent bit set, sign and fraction clear, denotes +∞. -/
theorem ofBits_inf : Ideal.ofBits .f32 0x7F800000#32 = (⊤ : EReal) := by
  simp [Ideal.ofBits, Ideal.ieee]

end Cert.Consts

end
-- ==== Proof.RefValue.lean ====
/-
  The reference's result over the extended reals. Entry (R, q) of its masked matrix is zero where the column number q
  equals row R's label and the hinge term max (score − label score + 1, 0) elsewhere; the result is the host's sum of
  that matrix from zero, a double sum over the 16384 rows and the 4096 columns.
-/
import proofs.«414020_j57389353009458_3_alg».proof.Proof.RefColumn
import proofs.«414020_j57389353009458_3_alg».proof.Proof.Consts
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.ReferenceIdeal.Column

/-- The broadcasts of the column numbers, of the labels and of the label scores, traced back to their sources. -/
theorem idx_col (R : Fin 16384) (q : Fin 4096) : idx_main_v9 (idx_main_v11 (ix2 R q)) = ix1 q := by
  funext a; match a with | ⟨0, _⟩ => rfl
theorem idx_lab (R : Fin 16384) (q : Fin 4096) : idx_main_v10 (idx_main_v12 (ix2 R q)) = ix1 R := by
  funext a; match a with | ⟨0, _⟩ => rfl
theorem idx_g (R : Fin 16384) (q : Fin 4096) : idx_main_v2 (ix2 R q) = ix2 R (0 : Fin 1) := by
  funext a; match a with | ⟨0, _⟩ => rfl | ⟨1, _⟩ => rfl

/-- One entry of the reference's masked matrix: zero at the row's label column, the hinge term elsewhere. -/
theorem masked_apply (X : (⟨S16384x4096, .f32⟩ : BufTy).Contents (Elt Ideal)) (lab : (⟨S16384, .i32⟩ : BufTy).Contents (Elt Ideal))
    (R : Fin 16384) (q : Fin 4096) :
    val_main_v14 (F := Ideal) X lab (ix2 R q)
      = if BitVec.ofNat 32 q.val = lab (ix1 R) then (0 : EReal)
        else max (X (ix2 R q) - val_main_v1 (F := Ideal) X lab (ix2 R (0 : Fin 1)) + 1) 0 := by
  rw [val_main_v14_apply, val_main_v13_apply, val_main_v11_apply, val_main_v9_apply, val_main_v8_apply, val_main_v12_apply,
    val_main_v10_apply, idx_col, idx_lab, val_main_call1_v1_apply, val_main_call1_v0_apply, val_main_cst_1_apply,
    val_main_v7_apply, val_main_v5_apply, val_main_v3_apply, val_main_v2_apply, idx_g, val_main_v4_apply, val_main_cst_apply,
    val_main_v6_apply, val_main_cst_0_apply]
  show Scalar.select (IntOp.cmpi .eq (BitVec.ofNat 32 q.val) (lab (ix1 R))) (Ideal.ofBits .f32 0x00000000#32)
      (max (X (ix2 R q) - val_main_v1 (F := Ideal) X lab (ix2 R (0 : Fin 1)) + Ideal.ofBits .f32 0x3F800000#32)
        (Ideal.ofBits .f32 0x00000000#32)) = _
  rw [Ideal.ofBits_zero_f32, Cert.Consts.ofBits_one]
  by_cases hq : BitVec.ofNat 32 q.val = lab (ix1 R)
  · rw [if_pos hq, StableHlo.Predicate.cmpi_eq_iff.2 hq, select_one]
  · rw [if_neg hq, eq_zero_of_ne_one (fun h => hq (StableHlo.Predicate.cmpi_eq_iff.1 h)), select_zero]

/-- The reference's result: from zero, the sum over every row and column of the masked hinge terms. -/
theorem result_apply (X : (⟨S16384x4096, .f32⟩ : BufTy).Contents (Elt Ideal)) (lab : (⟨S16384, .i32⟩ : BufTy).Contents (Elt Ideal))
    (j : S_.Idx) :
    val_main_v15 (F := Ideal) X lab j
      = 0 + ∑ R : Fin 16384, ∑ q : Fin 4096, if BitVec.ofNat 32 q.val = lab (ix1 R) then (0 : EReal)
          else max (X (ix2 R q) - val_main_v1 (F := Ideal) X lab (ix2 R (0 : Fin 1)) + 1) 0 := by
  rw [val_main_v15_apply, val_main_cst_2_apply]
  show Ideal.ofBits .f32 0x00000000#32 + _ = _
  rw [Ideal.ofBits_zero_f32, sum_idx2]
  refine congrArg (fun z => (0 : EReal) + z) ?_
  refine Finset.sum_congr rfl fun R _ => Finset.sum_congr rfl fun q _ => ?_
  exact masked_apply X lab R q

end Cert.ReferenceIdeal.RefValue
end
-- ==== Proof.HingeAlgebra.lean ====
/-
  The hinge loss summed tile by tile, each tile corrected by its row count, is the hinge loss summed with the
  label column left out. For a score matrix `X` and the per-row score `g R = X R (lq R)` of the row's own label,
  the term at the label column is `max (x - x + 1) 0 = 1` when `x` is finite, so a row's full sum is its
  label-free sum plus one, a tile of 512 rows exceeds its label-free sum by 512, and subtracting 512 (a real
  number: the cancellation is sound on the extended reals whatever the rest of the sum is) leaves the label-free
  sum; the tiles (2 halves of 16 tiles of 512 rows) enumerate the 16384 rows once each.
-/
import Mathlib.Data.EReal.Operations
import Mathlib.Algebra.BigOperators.Fin
import Mathlib.Algebra.BigOperators.Group.Finset.Basic
import Mathlib.Algebra.BigOperators.Group.Finset.Piecewise
import Mathlib.Data.Fintype.BigOperators

open scoped BigOperators

namespace Cert.Hinge

/-- Row `r` of tile `i` of half `p`: tiles are 512 consecutive rows, 16 tiles to a half. -/
def row (p : Fin 2) (i : Fin 16) (r : Fin 512) : Fin 16384 :=
  ⟨512 * (16 * p.val + i.val) + r.val, by have := p.isLt; have := i.isLt; have := r.isLt; omega⟩

/-- The tiles enumerate the rows once each: summing over halves, tiles and rows within a tile is summing
over all 16384 rows. The map `(p, i, r) ↦ 512 * (16 p + i) + r` is a bijection, with inverse
`R ↦ (R / 8192, (R / 512) % 16, R % 512)`. -/
private theorem sum_tiles {M : Type*} [AddCommMonoid M] (A : Fin 16384 → M) :
    ∑ p : Fin 2, ∑ i : Fin 16, ∑ r : Fin 512, A (row p i r) = ∑ R : Fin 16384, A R := by
  have h1 : ∑ p : Fin 2, ∑ i : Fin 16, ∑ r : Fin 512, A (row p i r)
      = ∑ x : Fin 2 × Fin 16 × Fin 512, A (row x.1 x.2.1 x.2.2) := by
    rw [Fintype.sum_prod_type]
    refine Finset.sum_congr rfl fun p _ => ?_
    rw [Fintype.sum_prod_type]
  rw [h1]
  refine Fintype.sum_bijective (fun x : Fin 2 × Fin 16 × Fin 512 => row x.1 x.2.1 x.2.2) ?_ _ _
    (fun _ => rfl)
  constructor
  · rintro ⟨p, i, r⟩ ⟨p', i', r'⟩ h
    simp only [row, Fin.mk.injEq] at h
    have hp := p.isLt; have hi := i.isLt; have hr := r.isLt
    have hp' := p'.isLt; have hi' := i'.isLt; have hr' := r'.isLt
    have e1 : p.val = p'.val := by omega
    have e2 : i.val = i'.val := by omega
    have e3 : r.val = r'.val := by omega
    rw [Fin.ext e1, Fin.ext e2, Fin.ext e3]
  · intro R
    have hR := R.isLt
    refine ⟨(⟨R.val / 8192, by omega⟩, ⟨(R.val / 512) % 16, by omega⟩, ⟨R.val % 512, by omega⟩), ?_⟩
    apply Fin.ext
    simp only [row]
    omega

/-- At a finite extended real `x`, the hinge term of `x` against itself is `max (0 + 1) 0 = 1`. -/
private theorem hinge_self {x : EReal} (h_top : x ≠ ⊤) (h_bot : x ≠ ⊥) : max (x - x + 1) 0 = 1 := by
  rw [EReal.sub_self h_top h_bot, zero_add]
  exact max_eq_left zero_le_one

/-- A row's hinge sum is its sum with the label column left out, plus the label column's term, which is
one. -/
private theorem row_sum (X : Fin 16384 → Fin 4096 → EReal) (g : Fin 16384 → EReal)
    (lq : Fin 16384 → Fin 4096) (hg : ∀ R, g R = X R (lq R))
    (hfin : ∀ R, X R (lq R) ≠ ⊤ ∧ X R (lq R) ≠ ⊥) (R : Fin 16384) :
    ∑ q : Fin 4096, max (X R q - g R + 1) 0
      = (∑ q : Fin 4096, if q = lq R then 0 else max (X R q - g R + 1) 0) + 1 := by
  have hpt : ∀ q : Fin 4096, max (X R q - g R + 1) 0
      = (if q = lq R then 0 else max (X R q - g R + 1) 0) + (if q = lq R then (1 : EReal) else 0) := by
    intro q
    by_cases hq : q = lq R
    · subst hq
      rw [if_pos rfl, if_pos rfl, zero_add, hg R]
      exact hinge_self (hfin R).1 (hfin R).2
    · rw [if_neg hq, if_neg hq, add_zero]
  rw [Finset.sum_congr rfl fun q _ => hpt q, Finset.sum_add_distrib,
    Fintype.sum_ite_eq' (lq R) fun _ => (1 : EReal)]

/-- Subtracting the real number 512 after adding it returns any extended real unchanged. -/
private theorem add_sub_512 (B : EReal) : B + 512 - 512 = B := by
  have h : (512 : EReal) = ((512 : ℝ) : EReal) := by norm_cast
  rw [h]
  exact EReal.add_sub_cancel_right

/-- A tile's hinge sum less its 512 rows is the tile's sum with the label column left out. -/
private theorem tile_sum (X : Fin 16384 → Fin 4096 → EReal) (g : Fin 16384 → EReal)
    (lq : Fin 16384 → Fin 4096) (hg : ∀ R, g R = X R (lq R))
    (hfin : ∀ R, X R (lq R) ≠ ⊤ ∧ X R (lq R) ≠ ⊥) (p : Fin 2) (i : Fin 16) :
    (∑ r : Fin 512, ∑ q : Fin 4096, max (X (row p i r) q - g (row p i r) + 1) 0) - 512
      = ∑ r : Fin 512, ∑ q : Fin 4096,
          if q = lq (row p i r) then 0 else max (X (row p i r) q - g (row p i r) + 1) 0 := by
  have hone : ∑ _r : Fin 512, (1 : EReal) = 512 := by
    rw [Finset.sum_const, Finset.card_univ, Fintype.card_fin, nsmul_one]
    norm_cast
  rw [Finset.sum_congr rfl fun r _ => row_sum X g lq hg hfin (row p i r), Finset.sum_add_distrib, hone]
  exact add_sub_512 _

theorem tiles_eq_masked (X : Fin 16384 → Fin 4096 → EReal) (g : Fin 16384 → EReal) (lq : Fin 16384 → Fin 4096)
    (hg : ∀ R, g R = X R (lq R)) (hfin : ∀ R, X R (lq R) ≠ ⊤ ∧ X R (lq R) ≠ ⊥) :
    (0 : EReal) + ∑ p : Fin 2, ∑ i : Fin 16,
        ((∑ r : Fin 512, ∑ q : Fin 4096, max (X (row p i r) q - g (row p i r) + 1) 0) - 512)
      = 0 + ∑ R : Fin 16384, ∑ q : Fin 4096, if q = lq R then 0 else max (X R q - g R + 1) 0 := by
  refine congrArg (fun t => (0 : EReal) + t) ?_
  rw [Finset.sum_congr rfl fun p _ => Finset.sum_congr rfl fun i _ => tile_sum X g lq hg hfin p i]
  exact sum_tiles fun R => ∑ q : Fin 4096, if q = lq R then 0 else max (X R q - g R + 1) 0

end Cert.Hinge
-- ==== Proof.PreDecode.lean ====
/-
  What the precondition says of the inputs. The printed predicate is the conjunction of two `all`s: every score's
  absolute value is below +∞ — so every score is a real number, neither infinity —, and every label, read as a
  signed 32-bit integer, is at least 0 and below 4096 — so as a natural number it is below 4096.
-/
import proofs.«414020_j57389353009458_3_alg».proof.Pre_finite_inputs
import proofs.«414020_j57389353009458_3_alg».proof.Proof.Gen.Pre_finite_inputs
import proofs.«414020_j57389353009458_3_alg».proof.Proof.Consts
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

namespace Cert.PreDecode

open Idealize.ShloMosaic

/-- The scalar shape has exactly one index. -/
instance subsingleton_scalarIdx : Subsingleton Cert.Pre_finite_inputs.S_.Idx :=
  ⟨fun _ _ => funext fun d => d.elim0⟩

/-- The f32 pattern with every exponent bit set, sign and fraction clear, denotes +∞. -/
theorem inf_pattern : Ideal.ofBits .f32 0x7F800000#32 = (⊤ : EReal) := Cert.Consts.ofBits_inf

/-- A score whose absolute value max x (-x) is strictly below +∞ is neither infinity: at x = ⊤ the maximum is ⊤,
    and at x = ⊥ it is -⊥ = ⊤ again, and ⊤ < ⊤ is false. -/
theorem finite_of_abs_lt_inf (x : Ideal .f32)
    (h : FloatOps.cmpf .olt (FloatOps.hostAbsf x) (FloatOps.ofBits (F := Ideal) .f32 0x7F800000#32) = 1#1) :
    x ≠ (⊤ : EReal) ∧ x ≠ (⊥ : EReal) := by
  rw [Ideal.hostAbsf_def, Ideal.absf_def, Ideal.cmpf_def] at h
  change Ideal.cmp .olt (max x (-x)) (Ideal.ofBits .f32 0x7F800000#32) = 1#1 at h
  rw [inf_pattern] at h
  simp only [Ideal.cmp, StableHlo.Predicate.ofBool_eq_one_iff, decide_eq_true_eq] at h
  constructor
  · rintro rfl
    simp at h
  · rintro rfl
    simp at h

/-- A 32-bit word that is at least 0 and below 4096 when read signed is below 4096 when read unsigned: a word with
    its top bit set reads signed as its value minus 2³², which is negative. -/
theorem label_lt (a : BitVec 32) (h0 : IntOp.cmpi .sge a 0#32 = 1#1) (h1 : IntOp.cmpi .slt a 4096#32 = 1#1) :
    a.toNat < 4096 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (4096#32 : BitVec 32).toInt = 4096 := by decide
  rw [e0] at h0
  rw [e1] at h1
  have hc := BitVec.toInt_eq_toNat_cond a
  have hlt := a.isLt
  split at hc <;> omega

/-- The precondition all ones: every score finite, every label a column number. -/
theorem of_pre [Cert.Pre_finite_inputs.Facts]
    (X : FVec Ideal Cert.Pre_finite_inputs.S16384x4096 .f32) (lab : IVec Cert.Pre_finite_inputs.S16384 32)
    (h : Cert.Pre_finite_inputs.fn (F := Ideal) X lab = fun _ => 1#1) :
    (∀ i, X i ≠ (⊤ : EReal) ∧ X i ≠ (⊥ : EReal)) ∧ (∀ r, (lab r).toNat < 4096) := by
  -- the result has one index; read the predicate there and split its final conjunction into the two `all`s
  have h0 := congrFun h ValueIdx.ix0
  dsimp only [Cert.Pre_finite_inputs.fn] at h0
  obtain ⟨hA, hB⟩ := IntOp.andi_eq_one.1 h0
  refine ⟨fun i => ?_, fun r => ?_⟩
  · -- the first `all` at the element i: |X i| < +∞ (the broadcast constant reads the same scalar everywhere)
    have hi := Host.reduce_andi_all _ _ _ _ _ hA i
    exact finite_of_abs_lt_inf (X i) hi
  · -- the second `all` at the row r: the conjunction of the two signed comparisons of lab r
    have hr := Host.reduce_andi_all _ _ _ _ _ hB r
    have hr' : IntOp.andi (IntOp.cmpi .sge (lab r) 0#32) (IntOp.cmpi .slt (lab r) 4096#32) = 1#1 := hr
    obtain ⟨h1, h2⟩ := IntOp.andi_eq_one.1 hr'
    exact label_lt (lab r) h1 h2

end Cert.PreDecode
-- ==== Proof.Bridge.lean ====
/-
  The two results are the same extended real. The kernel's result, written out: from zero, over the two halves and the
  sixteen tiles of each, the tile's hinge terms summed over its 512 rows and 4096 columns, less 512. The reference's:
  from zero, over the 16384 rows and 4096 columns, the hinge term where the column is not the row's label. Both are
  stated over the same matrix of scores and the same column of label scores; the precondition makes the label score
  of a row that row's finite entry at its label, and the algebra of the hinge sum joins the two.
-/
import proofs.«414020_j57389353009458_3_alg».proof.Proof.KernelResult
import proofs.«414020_j57389353009458_3_alg».proof.Proof.KernelBlocks
import proofs.«414020_j57389353009458_3_alg».proof.Proof.RefValue
import proofs.«414020_j57389353009458_3_alg».proof.Proof.HingeAlgebra
import proofs.«414020_j57389353009458_3_alg».proof.Proof.PreDecode
import proofs.«414020_j57389353009458_3_alg».proof.Proof.Consts

noncomputable section

open Idealize.ShloMosaic Idealize.ShloMosaic.TcCoe Idealize.SL.Sem Idealize.ShloMosaic.ValueIdx

namespace Cert.Bridge

open Cert.KernelIdeal Cert.KernelIdeal.Gen Cert.KernelIdeal.Chain Cert.KernelIdeal.Payload Cert.KernelIdeal.Total
  Cert.KernelIdeal.Result Cert.KernelIdeal.Blocks

variable (m : (ℓ : Loc nD τ sig) → Buf (Elt Ideal) ℓ) (c : Dev nD)

/-- The scores by row and column, and the reference's label score by row. -/
abbrev Xf : Fin 16384 → Fin 4096 → EReal := fun R q => m ((c : Thread nD τ).loc main_arg0) (ix2 R q)
abbrev gf : Fin 16384 → EReal := fun R =>
  Cert.ReferenceIdeal.Read.val_main_v1 (F := Ideal) (m ((c : Thread nD τ).loc main_arg0)) (m ((c : Thread nD τ).loc main_arg1)) (ix2 R (0 : Fin 1))

/-- The total of tile `i` of half `p`, over the matrix argument and the label scores. -/
theorem tile_form (p : Fin 2) (i : Fin 16) :
    tileTot m c (16 * p.val + i.val)
      = (∑ r : Fin 512, ∑ q : Fin 4096, max (Xf m c (Cert.Hinge.row p i r) q - gf m c (Cert.Hinge.row p i r) + 1) 0) - 512 := by
  have hN : cfg0.N = 32 := N_0
  have hk : 16 * p.val + i.val < cfg0.N := by have := p.isLt; have := i.isLt; rw [hN]; omega
  unfold tileTot
  rw [dif_pos hk, Cert.Consts.ofBits_512]
  refine congrArg (fun z => z - (512 : EReal)) ?_
  refine Finset.sum_congr rfl fun r _ => Finset.sum_congr rfl fun q _ => ?_
  have hx := xblk_apply m c ⟨16 * p.val + i.val, hk⟩ r q
  have hgb := gblk_apply m c ⟨16 * p.val + i.val, hk⟩ r
  have e : rowOf ⟨16 * p.val + i.val, hk⟩ r = Cert.Hinge.row p i r := rfl
  rw [e] at hx hgb
  show max (xblk m c ⟨16 * p.val + i.val, hk⟩ (ix2 r q) - gblk m c ⟨16 * p.val + i.val, hk⟩ (ix2 r (0 : Fin 1))
      + Ideal.ofBits .f32 0x3F800000#32) (Ideal.ofBits .f32 0x00000000#32) = _
  rw [hx, hgb, Cert.Consts.ofBits_one, Ideal.ofBits_zero_f32]

/-- The kernel's result as a sum over halves and tiles. -/
theorem kernel_form (j : S_.Idx) :
    result m c j = 0 + ∑ p : Fin 2, ∑ i : Fin 16,
      ((∑ r : Fin 512, ∑ q : Fin 4096, max (Xf m c (Cert.Hinge.row p i r) q - gf m c (Cert.Hinge.row p i r) + 1) 0) - 512) := by
  unfold result
  have h1 : Host.reduceAdd (F := Ideal) (outArr m c) (constant (F := Ideal) S_ .f32 0x00000000#32) reducesTo_S2x1x1_S_d0_1_2 h_S_ j
      = Ideal.ofBits .f32 0x00000000#32 + ∑ i : S2x1x1.Idx, outArr m c i := by
    simp only [Host.reduceAdd, Ideal.hostReduceAdd_def]
    exact Ideal.hostReduceAdd_total reducesTo_S2x1x1_S_d0_1_2 (fun b => b.elim0) _ _ j
  rw [h1, Ideal.ofBits_zero_f32]
  refine congrArg (fun z => (0 : EReal) + z) ?_
  have hb : Function.Bijective (fun p : Fin 2 => (ix3 p (0 : Fin 1) (0 : Fin 1) : S2x1x1.Idx)) := by
    constructor
    · intro p p' h; exact congrFun h 0
    · intro i
      refine ⟨i 0, ?_⟩
      funext a
      match a with
      | ⟨0, _⟩ => rfl
      | ⟨1, _⟩ => exact Fin.ext (by have h : (i 1).val < 1 := (i 1).isLt; show (0 : ℕ) = (i 1).val; omega)
      | ⟨2, _⟩ => exact Fin.ext (by have h : (i 2).val < 1 := (i 2).isLt; show (0 : ℕ) = (i 2).val; omega)
  rw [← Fintype.sum_bijective _ hb (fun p => outArr m c (ix3 p (0 : Fin 1) (0 : Fin 1))) (outArr m c) (fun _ => rfl)]
  refine Finset.sum_congr rfl fun p _ => ?_
  unfold outArr
  rw [Finset.sum_range]
  refine Finset.sum_congr rfl fun i _ => ?_
  exact tile_form m c p i

/-- A column number equals a row's label, as 32-bit words, exactly when it is the label read as a number. -/
theorem mask_iff (lab : BitVec 32) (hl : lab.toNat < 4096) (q : Fin 4096) :
    BitVec.ofNat 32 q.val = lab ↔ q = (⟨lab.toNat, hl⟩ : Fin 4096) := by
  constructor
  · intro h
    apply Fin.ext
    have h' := congrArg BitVec.toNat h
    rw [BitVec.toNat_ofNat] at h'
    have hq := q.isLt
    show q.val = lab.toNat
    omega
  · intro h
    have h' : q.val = lab.toNat := congrArg Fin.val h
    rw [h']
    apply BitVec.eq_of_toNat_eq
    rw [BitVec.toNat_ofNat]
    have hl' := lab.isLt
    omega

/-- THE TWO RESULTS ARE ONE NUMBER. Under the precondition — every score finite, every label a column number —
    the reference's masked double sum and the kernel's tile-by-tile sum with the row counts subtracted agree: the label
    column's hinge term is exactly one in every row. -/
theorem value_eq
    (hpre : Cert.Pre_finite_inputs.fn (F := Ideal) (m ((c : Thread nD τ).loc main_arg0)) (m ((c : Thread nD τ).loc main_arg1)) = fun _ => 1#1) :
    Cert.ReferenceIdeal.Read.val_main_v15 (F := Ideal) (m ((c : Thread nD τ).loc main_arg0)) (m ((c : Thread nD τ).loc main_arg1))
      = result m c := by
  obtain ⟨hfin, hlab⟩ := Cert.PreDecode.of_pre _ _ hpre
  funext j
  rw [Cert.ReferenceIdeal.RefValue.result_apply, kernel_form]
  have hg : ∀ R, gf m c R = Xf m c R (⟨(m ((c : Thread nD τ).loc main_arg1) (ix1 R)).toNat, hlab _⟩ : Fin 4096) :=
    fun R => Cert.ReferenceIdeal.Column.gathered _ _ R (hlab _)
  rw [Cert.Hinge.tiles_eq_masked (Xf m c) (gf m c) (fun R => (⟨(m ((c : Thread nD τ).loc main_arg1) (ix1 R)).toNat, hlab _⟩ : Fin 4096)) hg
    (fun R => hfin _)]
  refine congrArg (fun z => (0 : EReal) + z) ?_
  refine Finset.sum_congr rfl fun R _ => Finset.sum_congr rfl fun q _ => ?_
  exact if_congr (mask_iff _ (hlab _) q) rfl rfl

end Cert.Bridge
end
-- ==== Proof.lean ====
/-
  The multi-class hinge (Crammer–Singer margin) loss summed over a batch of 16384 rows of 4096 scores: for every row the
  terms max (score − label score + 1, 0) over the columns other than the row's label. The reference masks the label
  column out and sums the whole matrix. The kernel streams the matrix in 32 tiles of 512 rows, 16 tiles to each of two
  halves, adds every column's term — the label column's included — and subtracts 512 from each tile's total; each
  half's running sum is written to its entry of a two-entry output, and the host adds the two entries.

  The two agree over the extended reals when every score is finite and every label is a column number
  (0 ≤ label < 4096): then the label score is the row's own entry at the label column, the term there is
  max (x − x + 1, 0) = 1 exactly, a tile's total exceeds its label-free total by its 512 rows, and subtracting the real
  number 512 cancels that excess whatever the rest of the sum is. Sums of extended reals re-associate and re-order
  freely, so the kernel's order of accumulation does not matter.

  The modules: the three cases of a grid point read back as one payload (KernelPieces), the payload as a formula
  (KernelPayload), the accumulator along the grid (KernelChain, KernelTotal), the input blocks and the gathered column
  (KernelBlocks, KernelColumn, LibGatherAlongAxis, RefColumn), the output array and the kernel's run (KernelResult), the
  reference's masked sum (RefValue), the precondition read back (PreDecode, Consts), the algebra (HingeAlgebra) and the
  equality of the two results (Bridge).
-/
import proofs.«414020_j57389353009458_3_alg».proof.Defs
import proofs.«414020_j57389353009458_3_alg».proof.Proof.Gen.Kernel
import proofs.«414020_j57389353009458_3_alg».proof.Proof.Gen.Kernel.Skeleton
import proofs.«414020_j57389353009458_3_alg».proof.Proof.Gen.Kernel.Launch
import proofs.«414020_j57389353009458_3_alg».proof.Proof.Gen.Kernel.Points
import proofs.«414020_j57389353009458_3_alg».proof.Proof.Gen.Kernel.Frame
import proofs.«414020_j57389353009458_3_alg».proof.Proof.Gen.KernelIdeal
import proofs.«414020_j57389353009458_3_alg».proof.Proof.Gen.KernelIdeal.Skeleton
import proofs.«414020_j57389353009458_3_alg».proof.Proof.Gen.KernelIdeal.Launch
import proofs.«414020_j57389353009458_3_alg».proof.Proof.Gen.KernelIdeal.Points
import proofs.«414020_j57389353009458_3_alg».proof.Proof.Gen.KernelIdeal.Frame
import proofs.«414020_j57389353009458_3_alg».proof.Proof.Gen.ReferenceIdeal
import proofs.«414020_j57389353009458_3_alg».proof.Proof.Gen.Pre_finite_inputs
import proofs.«414020_j57389353009458_3_alg».proof.Proof.RefRun
import proofs.«414020_j57389353009458_3_alg».proof.Proof.RefRead
import proofs.«414020_j57389353009458_3_alg».proof.Proof.Bridge
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the scores and the labels both programs end with the same number: the kernel's
    result buffer at the sum of its two half totals, the reference's at its masked double sum, equal under the
    precondition. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (Cert.Bridge.value_eq m c (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
